-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x64 : Shape := ⟨3, ![64, 2048, 64]⟩
abbrev S_ : Shape := ⟨0, ![]⟩

class Facts : Prop where
  bcast_S_S64x2048x64 : S_.BroadcastsInDim S64x2048x64 (![] : Fin 0 → Fin S64x2048x64.rank)
  reducesTo_S64x2048x64_S_d0_1_2 : S64x2048x64.ReducesTo [0, 1, 2] S_
  h_S_ : 0 < S_.numel

variable [Facts]

def fn {F : FTy → Type} [FloatOps F] (main_arg0 : FVec F S64x2048x64 .f32) (main_arg1 : FVec F S64x2048x64 .f32) (main_arg2 : FVec F S64x2048x64 .f32) : IVec S_ 1 :=
  let main_v0 : FVec F S64x2048x64 .f32 := Host.absf main_arg0
  let main_cst : FVec F S_ .f32 := constant S_ .f32 0x7F800000#32
  let main_v1 : FVec F S64x2048x64 .f32 := broadcastInDim S64x2048x64 ![] bcast_S_S64x2048x64 main_cst
  let main_v2 : IVec S64x2048x64 1 := cmpf .olt main_v0 main_v1
  let main_c : IVec S_ 1 := constantI S_ 1 1#1
  let main_v3 : IVec S_ 1 := (fun x v => Host.reduce IntOp.andi x v reducesTo_S64x2048x64_S_d0_1_2 h_S_) main_v2 main_c
  let main_v4 : FVec F S64x2048x64 .f32 := Host.absf main_arg1
  let main_cst_0 : FVec F S_ .f32 := constant S_ .f32 0x7F800000#32
  let main_v5 : FVec F S64x2048x64 .f32 := broadcastInDim S64x2048x64 ![] bcast_S_S64x2048x64 main_cst_0
  let main_v6 : IVec S64x2048x64 1 := cmpf .olt main_v4 main_v5
  let main_c_1 : IVec S_ 1 := constantI S_ 1 1#1
  let main_v7 : IVec S_ 1 := (fun x v => Host.reduce IntOp.andi x v reducesTo_S64x2048x64_S_d0_1_2 h_S_) main_v6 main_c_1
  let main_v8 : IVec S_ 1 := andi main_v3 main_v7
  let main_v9 : FVec F S64x2048x64 .f32 := Host.absf main_arg2
  let main_cst_2 : FVec F S_ .f32 := constant S_ .f32 0x7F800000#32
  let main_v10 : FVec F S64x2048x64 .f32 := broadcastInDim S64x2048x64 ![] bcast_S_S64x2048x64 main_cst_2
  let main_v11 : IVec S64x2048x64 1 := cmpf .olt main_v9 main_v10
  let main_c_3 : IVec S_ 1 := constantI S_ 1 1#1
  let main_v12 : IVec S_ 1 := (fun x v => Host.reduce IntOp.andi x v reducesTo_S64x2048x64_S_d0_1_2 h_S_) main_v11 main_c_3
  let main_v13 : IVec S_ 1 := andi main_v8 main_v12
  main_v13
-- ==== Kernel.lean ====
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S64x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S64x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x64 : Shape := ⟨3, ![64, 2048, 64]⟩
abbrev S64x2048x2048 : Shape := ⟨3, ![64, 2048, 2048]⟩
abbrev S_ : Shape := ⟨0, ![]⟩
abbrev S64x2048 : Shape := ⟨2, ![64, 2048]⟩
abbrev S64x2048x1 : Shape := ⟨3, ![64, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S64x2048x2048, .f32⟩
  | .hbm, ⟨4, _⟩ => ⟨S_, .f32⟩
  | .hbm, ⟨5, _⟩ => ⟨S64x2048x2048, .f32⟩
  | .hbm, ⟨6, _⟩ => ⟨S64x2048x2048, .f32⟩
  | .hbm, ⟨7, _⟩ => ⟨S_, .f32⟩
  | .hbm, ⟨8, _⟩ => ⟨S64x2048, .f32⟩
  | .hbm, ⟨9, _⟩ => ⟨S_, .f32⟩
  | .hbm, ⟨10, _⟩ => ⟨S64x2048, .f32⟩
  | .hbm, ⟨11, _⟩ => ⟨S64x2048, .f32⟩
  | .hbm, ⟨12, _⟩ => ⟨S64x2048x1, .f32⟩
  | .hbm, ⟨13, _⟩ => ⟨S64x2048x2048, .f32⟩
  | .hbm, ⟨14, _⟩ => ⟨S64x2048x2048, .f32⟩
  | .hbm, ⟨15, _⟩ => ⟨S64x2048x2048, .f32⟩
  | .hbm, ⟨16, _⟩ => ⟨S_, .f32⟩
  | .hbm, ⟨17, _⟩ => ⟨S64x2048, .f32⟩
  | .hbm, ⟨18, _⟩ => ⟨S64x2048x1, .f32⟩
  | .hbm, ⟨19, _⟩ => ⟨S64x2048x2048, .f32⟩
  | .hbm, ⟨20, _⟩ => ⟨S64x2048x2048, .f32⟩
  | .hbm, ⟨21, _⟩ => ⟨S64x2048x64, .f32⟩
  | _, _ => ⟨S64x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S64x2048x2048 : S_.BroadcastsInDim S64x2048x2048 (![] : Fin 0 → Fin S64x2048x2048.rank)
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  dot_S64x2048x64_S64x2048x64_S64x2048x2048_2_2_1_1_0_0_wf : DotDims.WF S64x2048x64 S64x2048x64 S64x2048x2048 [2] [2] [1] [1] [0] [0]
  dot_S64x2048x2048_S64x2048x64_S64x2048x64_2_1_1_2_0_0_wf : DotDims.WF S64x2048x2048 S64x2048x64 S64x2048x64 [2] [1] [1] [2] [0] [0]

variable [Facts₀]

def dot_S64x2048x64_S64x2048x64_S64x2048x2048_2_2_1_1_0_0 : DotDims S64x2048x64 S64x2048x64 S64x2048x2048 where
  lhsContracting := [2]
  rhsContracting := [2]
  lhsNonContracting := [1]
  rhsNonContracting := [1]
  lhsBatch := [0]
  rhsBatch := [0]
  wf := dot_S64x2048x64_S64x2048x64_S64x2048x2048_2_2_1_1_0_0_wf
def dot_S64x2048x2048_S64x2048x64_S64x2048x64_2_1_1_2_0_0 : DotDims S64x2048x2048 S64x2048x64 S64x2048x64 where
  lhsContracting := [2]
  rhsContracting := [1]
  lhsNonContracting := [1]
  rhsNonContracting := [2]
  lhsBatch := [0]
  rhsBatch := [0]
  wf := dot_S64x2048x2048_S64x2048x64_S64x2048x64_2_1_1_2_0_0_wf

class Facts : Prop extends Facts₀ where

variable [Facts]
-- ==== Proof.Finite.lean ====
/-
  The precondition read: `finite_inputs` says, of each of the three arrays, that every entry's absolute
  value is below `+inf`; on the extended reals that is exactly "the entry is a real number".
  The printed predicate is the conjunction of three all-reductions of the comparisons
  `max x (-x) < +inf`; a conjunction that is `1` has both conjuncts `1`, an all-reduction that is `1`
  had `1` at every index, and `max x (-x) < ⊤` excludes `x = ⊤` and `x = ⊥`.
-/
import proofs.«429320_j39676907887282_3_alg».proof.Pre_finite_inputs
import proofs.«429320_j39676907887282_3_alg».proof.Proof.Gen.Pre_finite_inputs
import Idealize.ShloMosaic.Lib.ReduceAll
import Idealize.ShloMosaic.Lib.Affine
import Idealize.ShloMosaic.Lib.ValueIdx

noncomputable section

namespace Cert.Attn.Finite

open Idealize.ShloMosaic Cert.Pre_finite_inputs

/-- The scalar shape has one index. -/
instance : Subsingleton S_.Idx := ⟨fun a b => funext fun d => d.elim0⟩

/-- The pattern of `+inf` denotes the top of the extended reals. -/
theorem ofBits_posInf : Ideal.ofBits .f32 0x7F800000#32 = ⊤ := by
  simp [Ideal.ofBits, Ideal.ieee]

/-- An extended real whose absolute value compares below `+inf` is a real. -/
theorem real_of_abs_lt (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | top => simp [Ideal.cmp] at h
  | coe r => exact ⟨r, rfl⟩

/-- Where the printed precondition holds, all three arrays hold reals. -/
theorem real_of_pre (a0 a1 a2 : FVec Ideal S64x2048x64 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.Attn.Finite

end
-- ==== Proof.LibERealSum.lean ====
/-
  Finite sums and finite maxima of real numbers, formed inside the extended reals, are real: the sum
  is the real sum, and the maximum from `⊥` of a nonempty family is one of its members' order-maximum
  in `ℝ`.
-/
import Mathlib.Data.EReal.Basic
import Mathlib.Algebra.BigOperators.Group.Finset.Basic
import Mathlib.Data.Finset.Fold

noncomputable section

open scoped BigOperators

namespace Cert.Lib.ERealSum

/-- A finite sum of reals, each read as an extended real, is the real sum. -/
theorem coe_sum {α : Type} (t : Finset α) (f : α → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The maximum, from `⊥`, of a nonempty family of reals is a real. -/
theorem fold_max_real {α : Type} (t : Finset α) (ht : t.Nonempty) (s : α → ℝ) :
    ∃ M : ℝ, t.fold max (⊥ : EReal) (fun j => ((s j : ℝ) : EReal)) = (M : EReal) := by
  classical
  induction ht using Finset.Nonempty.cons_induction with
  | singleton a => exact ⟨s a, by rw [Finset.fold_singleton]; exact max_bot_right _⟩
  | cons a t ha _ ih =>
    obtain ⟨M, hM⟩ := ih
    exact ⟨max (s a) M, by rw [Finset.fold_cons, hM]; exact (EReal.coe_strictMono.monotone.map_max).symm⟩

end Cert.Lib.ERealSum

end
-- ==== Proof.Softmax.lean ====
/-
  One output entry of scaled dot-product attention, written twice over the extended reals, and the
  law that the two writings agree on real inputs.

  Fix a query row `q : κ → EReal`, the keys `k : ι → κ → EReal` and one column `v : ι → EReal` of
  the values.  The kernel scales the query first, `s j = ∑ d, (q d · c) · k j d`, subtracts the row
  maximum `M`, exponentiates, and divides the weighted sum by the sum of the weights ONCE:
      (∑ j, exp (s j − M) · v j) / (∑ j, exp (s j − M)).
  The reference divides the raw score by `e`, `s' j = (∑ d, q d · k j d) / e`, and normalises each
  weight before the weighted sum:
      ∑ j, (exp (s' j − M') / (z + ∑ j', exp (s' j' − M'))) · v j.
  For real inputs, `c = 1/8`, `e = 8`, the maxima seeded at `⊥` and `z = 0`: the scores are the same
  reals (`(q·⅛)·k` summed is `(q·k)` summed, over 8), their maximum is a real, every weight is a
  positive real, so the normaliser `L` is a nonzero real and `(∑ p·v)/L = ∑ (p/L)·v` is the
  distributive law in `ℝ`.
-/
import Idealize.ShloMosaic.PureOps.Ideal
import proofs.«429320_j39676907887282_3_alg».proof.Proof.LibERealSum

noncomputable section

open scoped BigOperators

namespace Cert.Attn

open Idealize.ShloMosaic Cert.Lib.ERealSum

variable {ι κ : Type} [Fintype ι] [Fintype κ]

/-! ## The two writings -/

/-- The maximum of a row of scores, folded from the seed `b`. -/
def rowMax (b : EReal) (s : ι → EReal) : EReal := (Finset.univ : Finset ι).fold max b s

/-- The kernel's score against key `j`: the query scaled by `c` before the contraction. -/
def scoreK (c : EReal) (q : κ → EReal) (k : ι → κ → EReal) : ι → EReal :=
  fun j => ∑ d, (q d * c) * k j d

/-- The reference's score against key `j`: the contraction divided by `e`. -/
def scoreR (e : EReal) (q : κ → EReal) (k : ι → κ → EReal) : ι → EReal :=
  fun j => Ideal.div (∑ d, q d * k j d) e

/-- The kernel's entry: the weighted sum of the value column divided once by the sum of the weights. -/
def softK (b : EReal) (s v : ι → EReal) : EReal :=
  Ideal.div (∑ j, Ideal.exp (s j - rowMax b s) * v j) (∑ j, Ideal.exp (s j - rowMax b s))

/-- The reference's entry: each weight normalised, then the weighted sum. -/
def softR (b z : EReal) (s v : ι → EReal) : EReal :=
  ∑ j, Ideal.div (Ideal.exp (s j - max b (rowMax b s)))
      (z + ∑ j', Ideal.exp (s j' - max b (rowMax b s))) * v j

/-! ## The maximum of a row of real scores is a real -/

/-- Over a nonempty row, the maximum from `⊥` of real scores is a real (Proof/LibERealSum.lean). -/
theorem rowMax_real [Nonempty ι] (s : ι → ℝ) :
    ∃ M : ℝ, rowMax ⊥ (fun j => ((s j : ℝ) : EReal)) = (M : EReal) :=
  fold_max_real Finset.univ Finset.univ_nonempty s

/-! ## The scores agree -/

theorem scoreK_real (q : κ → ℝ) (k : ι → κ → ℝ) (j : ι) :
    scoreK (((1 / 8 : ℝ) : ℝ) : EReal) (fun d => (q d : EReal)) (fun j d => (k j d : EReal)) j
      = (((∑ d, q d * k j d) * (1 / 8) : ℝ) : EReal) := by
  unfold scoreK
  simp only [← EReal.coe_mul]
  rw [coe_sum, Finset.sum_mul]
  exact congrArg _ (Finset.sum_congr rfl fun d _ => by ring)

theorem scoreR_real (q : κ → ℝ) (k : ι → κ → ℝ) (j : ι) :
    scoreR ((8 : ℝ) : EReal) (fun d => (q d : EReal)) (fun j d => (k j d : EReal)) j
      = (((∑ d, q d * k j d) * (1 / 8) : ℝ) : EReal) := by
  unfold scoreR
  rw [Ideal.div_coe (by norm_num : (8 : ℝ) ≠ 0)]
  simp only [← EReal.coe_mul]
  rw [coe_sum, ← EReal.coe_mul]

/-! ## The normalisation commutes with the weighted sum -/

/-- For real scores `s`, a real shift `M` and a real value column `v`: dividing the weighted sum by the
    sum of the weights is the weighted sum of the normalised weights.  The weights `exp (s j − M)` are
    positive reals, so over a nonempty row their sum is a nonzero real and both sides are real
    products with its reciprocal. -/
theorem soft_real [Nonempty ι] (s v : ι → ℝ) (M : ℝ) :
    Ideal.div (∑ j, Ideal.exp ((s j : EReal) - (M : EReal)) * (v j : EReal))
        (∑ j, Ideal.exp ((s j : EReal) - (M : EReal)))
      = ∑ j, Ideal.div (Ideal.exp ((s j : EReal) - (M : EReal)))
          (0 + ∑ j', Ideal.exp ((s j' : EReal) - (M : EReal))) * (v j : EReal) := by
  have he : ∀ j, Ideal.exp ((s j : EReal) - (M : EReal)) = ((Real.exp (s j - M) : ℝ) : EReal) :=
    fun j => by rw [← EReal.coe_sub, Ideal.exp_coe]
  simp only [he, zero_add]
  rw [coe_sum]
  have hL : (∑ j, Real.exp (s j - M)) ≠ 0 :=
    (Finset.sum_pos (fun j _ => Real.exp_pos _) Finset.univ_nonempty).ne'
  simp only [Ideal.div_coe hL, ← EReal.coe_mul]
  rw [coe_sum, coe_sum, ← EReal.coe_mul, Finset.sum_mul]
  exact congrArg _ (Finset.sum_congr rfl fun j _ => by ring)

/-! ## The law -/

/-- On real inputs the kernel's entry and the reference's entry are one extended real. -/
theorem softK_eq_softR [Nonempty ι] (q : κ → ℝ) (k : ι → κ → ℝ) (v : ι → ℝ) :
    softK ⊥ (scoreK ((1 / 8 : ℝ) : EReal) (fun d => (q d : EReal)) (fun j d => (k j d : EReal)))
        (fun j => (v j : EReal))
      = softR ⊥ 0 (scoreR ((8 : ℝ) : EReal) (fun d => (q d : EReal)) (fun j d => (k j d : EReal)))
        (fun j => (v j : EReal)) := by
  have hK : scoreK ((1 / 8 : ℝ) : EReal) (fun d => (q d : EReal)) (fun j d => (k j d : EReal))
      = fun j => (((∑ d, q d * k j d) * (1 / 8) : ℝ) : EReal) := funext (scoreK_real q k)
  have hR : scoreR ((8 : ℝ) : EReal) (fun d => (q d : EReal)) (fun j d => (k j d : EReal))
      = fun j => (((∑ d, q d * k j d) * (1 / 8) : ℝ) : EReal) := funext (scoreR_real q k)
  rw [hK, hR]
  obtain ⟨M, hM⟩ := rowMax_real (ι := ι) fun j => (∑ d, q d * k j d) * (1 / 8)
  unfold softK softR
  rw [hM, max_eq_right bot_le]
  exact soft_real _ v M

end Cert.Attn

end
-- ==== Proof.Consts.lean ====
/-
  The four float literals the two programs spell, as the extended reals their bit patterns denote:
  the zero seed of the row sums, the minus-infinity seed of the row maxima, the query scale 1/8 on
  the kernel's side and the score divisor 8 on the reference's side.
-/
import Idealize.ShloMosaic.PureOps.Ideal

noncomputable section

namespace Cert.Attn.Consts

open Idealize.ShloMosaic

/-- `+0.0` denotes `0`. -/
theorem ofBits_zero : Ideal.ofBits .f32 0x00000000#32 = 0 := by
  simp [Ideal.ofBits, Ideal.ieee]

/-- `-inf` denotes the bottom of the extended reals. -/
theorem ofBits_negInf : Ideal.ofBits .f32 0xFF800000#32 = ⊥ := by
  simp [Ideal.ofBits, Ideal.ieee]

/-- `0.125` denotes the real `1/8` exactly (a power of two). -/
theorem ofBits_eighth : Ideal.ofBits .f32 0x3E000000#32 = ((1 / 8 : ℝ) : EReal) := by
  simp [Ideal.ofBits, Ideal.ieee, -EReal.coe_mul]; norm_num

/-- `8.0` denotes the real `8`. -/
theorem ofBits_eight : Ideal.ofBits .f32 0x41000000#32 = ((8 : ℝ) : EReal) := by
  simp [Ideal.ofBits, Ideal.ieee, -EReal.coe_mul]; norm_num

end Cert.Attn.Consts

end
-- ==== Proof.Rows.lean ====
/-
  Attention over whole arrays `[64, 2048, 64]` (batch·head, position, feature), in the two writings
  of Proof/Softmax.lean.  Entry `(b, r, d)` of the result depends on row `r` of the queries of batch
  `b`, on all keys of batch `b` and on column `d` of the values of batch `b`; `qrow`, `krows`,
  `vcol` name those three slices, `attnK` and `attnR` apply the kernel's and the reference's entry
  formula to them, and `attnK_eq_attnR` is the law of Proof/Softmax.lean at every entry when all
  three arrays hold reals.
-/
import Idealize.ShloMosaic.Lib.ValueIdx
import proofs.«429320_j39676907887282_3_alg».proof.Proof.Softmax
import proofs.«429320_j39676907887282_3_alg».proof.Proof.Consts

noncomputable section

namespace Cert.Attn

open Idealize.ShloMosaic Idealize.ShloMosaic.ValueIdx

/-- An array of the three arguments' and the result's shape, at the extended reals. -/
abbrev Arr : Type := (⟨3, ![64, 2048, 64]⟩ : Shape).Idx → EReal

/-- Row `r` of batch `b` of the queries. -/
def qrow (x : Arr) (b : Fin 64) (r : Fin 2048) : Fin 64 → EReal := fun d => x (ix3 b r d)
/-- All rows of batch `b` of the keys. -/
def krows (x : Arr) (b : Fin 64) : Fin 2048 → Fin 64 → EReal := fun j d => x (ix3 b j d)
/-- Column `d` of batch `b` of the values. -/
def vcol (x : Arr) (b : Fin 64) (d : Fin 64) : Fin 2048 → EReal := fun j => x (ix3 b j d)

/-- The result in the kernel's writing: scale `c` folded into the query, one division per entry. -/
def attnK (c bot : EReal) (q k v : Arr) : Arr :=
  fun i => softK bot (scoreK c (qrow q (i 0) (i 1)) (krows k (i 0))) (vcol v (i 0) (i 2))

/-- The result in the reference's writing: scores divided by `e`, weights normalised one by one. -/
def attnR (e bot z : EReal) (q k v : Arr) : Arr :=
  fun i => softR bot z (scoreR e (qrow q (i 0) (i 1)) (krows k (i 0))) (vcol v (i 0) (i 2))

/-- With the programs' literals (`0.125`, `8.0`, `-inf`, `0.0`) and real arrays the two writings are one
    array. -/
theorem attnK_eq_attnR (q k v : Arr) (hq : ∀ i, ∃ r : ℝ, q i = (r : EReal)) (hk : ∀ i, ∃ r : ℝ, k i = (r : EReal))
    (hv : ∀ i, ∃ r : ℝ, v i = (r : EReal)) :
    attnK (Ideal.ofBits .f32 0x3E000000#32) (Ideal.ofBits .f32 0xFF800000#32) q k v
      = attnR (Ideal.ofBits .f32 0x41000000#32) (Ideal.ofBits .f32 0xFF800000#32) (Ideal.ofBits .f32 0x00000000#32) q k v := by
  choose qr hqr using hq
  choose kr hkr using hk
  choose vr hvr using hv
  obtain rfl : q = fun i => (qr i : EReal) := funext hqr
  obtain rfl : k = fun i => (kr i : EReal) := funext hkr
  obtain rfl : v = fun i => (vr i : EReal) := funext hvr
  funext i
  rw [Consts.ofBits_eighth, Consts.ofBits_negInf, Consts.ofBits_eight, Consts.ofBits_zero]
  exact softK_eq_softR (fun d => qr (ix3 (i 0) (i 1) d)) (fun j d => kr (ix3 (i 0) j d)) (fun j => vr (ix3 (i 0) j (i 2)))

end Cert.Attn

end
-- ==== Proof.RefValue.lean ====
/-
  The reference, read entry by entry: its result array is `attnR` (Proof/Rows.lean) of the three
  arguments.  The stages are read in program order at a row `(b, r)`: the scores `(q·k)/8`, their
  maximum from `-inf` (and once more against `-inf`), the weights `exp (score − max)`, their sum from
  `0`, the normalised weights, and the contraction with the value column.
-/
import proofs.«429320_j39676907887282_3_alg».proof.Proof.Gen.ReferenceIdeal.Read
import proofs.«429320_j39676907887282_3_alg».proof.Proof.Rows

noncomputable section

namespace Cert.ReferenceIdeal.RefValue

open Cert.ReferenceIdeal Cert.ReferenceIdeal.Gen Cert.ReferenceIdeal.Read
open Idealize.ShloMosaic Idealize.ShloMosaic.ValueIdx Cert.Attn

/-- An argument array of the reference at the extended reals. -/
abbrev A : Type := (⟨S64x2048x64, .f32⟩ : BufTy).Contents (Elt Ideal)

/-! ## The operations' index maps at coordinates -/

theorem lidx0 (b : Fin 64) (r j : Fin 2048) (k : Fin 64) : lidx_main_v0 (ix3 b r j) k = ix3 b r k :=
  funext fun a => Fin.ext (by match a with | ⟨0, _⟩ => rfl | ⟨1, _⟩ => rfl | ⟨2, _⟩ => rfl)
theorem ridx0 (b : Fin 64) (r j : Fin 2048) (k : Fin 64) : ridx_main_v0 (ix3 b r j) k = ix3 b j k :=
  funext fun a => Fin.ext (by match a with | ⟨0, _⟩ => rfl | ⟨1, _⟩ => rfl | ⟨2, _⟩ => rfl)
theorem idx7 (b : Fin 64) (r j : Fin 2048) : idx_main_v7 (ix3 b r j) = ix3 b r (0 : Fin 1) :=
  funext fun a => Fin.ext (by match a with | ⟨0, _⟩ => rfl | ⟨1, _⟩ => rfl | ⟨2, _⟩ => rfl)
theorem idx6 (b : Fin 64) (r : Fin 2048) (u : Fin 1) : idx_main_v6 (ix3 b r u) = ix2 b r :=
  funext fun a => Fin.ext (by match a with | ⟨0, _⟩ => rfl | ⟨1, _⟩ => rfl)
theorem idx10 (b : Fin 64) (r j : Fin 2048) : idx_main_v10 (ix2 b r) j = ix3 b r j :=
  funext fun a => Fin.ext (by match a with | ⟨0, _⟩ => rfl | ⟨1, _⟩ => rfl | ⟨2, _⟩ => rfl)
theorem idx12 (b : Fin 64) (r j : Fin 2048) : idx_main_v12 (ix3 b r j) = ix3 b r (0 : Fin 1) :=
  funext fun a => Fin.ext (by match a with | ⟨0, _⟩ => rfl | ⟨1, _⟩ => rfl | ⟨2, _⟩ => rfl)
theorem idx11 (b : Fin 64) (r : Fin 2048) (u : Fin 1) : idx_main_v11 (ix3 b r u) = ix2 b r :=
  funext fun a => Fin.ext (by match a with | ⟨0, _⟩ => rfl | ⟨1, _⟩ => rfl)
theorem lidx14 (b : Fin 64) (r : Fin 2048) (d : Fin 64) (j : Fin 2048) : lidx_main_v14 (ix3 b r d) j = ix3 b r j :=
  funext fun a => Fin.ext (by match a with | ⟨0, _⟩ => rfl | ⟨1, _⟩ => rfl | ⟨2, _⟩ => rfl)
theorem ridx14 (b : Fin 64) (r : Fin 2048) (d : Fin 64) (j : Fin 2048) : ridx_main_v14 (ix3 b r d) j = ix3 b j d :=
  funext fun a => Fin.ext (by match a with | ⟨0, _⟩ => rfl | ⟨1, _⟩ => rfl | ⟨2, _⟩ => rfl)

/-- The coordinate a reduction over the last axis inserts: `(b, r)` with `j` put back is `(b, r, j)`. -/
theorem lift_last (h : S64x2048x2048.Reduces [2] S64x2048) (b : Fin 64) (r j : Fin 2048) :
    h.lift (ix2 b r) j = ix3 b r j :=
  funext fun a => Fin.ext (by match a with | ⟨0, _⟩ => rfl | ⟨1, _⟩ => rfl | ⟨2, _⟩ => rfl)

/-! ## The stages at a row -/

/-- The scores of query row `(b, r)` against every key of batch `b`. -/
abbrev sR (x0 x1 : A) (b : Fin 64) (r : Fin 2048) : Fin 2048 → EReal :=
  scoreR (Ideal.ofBits .f32 0x41000000#32) (qrow x0 b r) (krows x1 b)

/-- Their maximum, as the reference takes it. -/
abbrev mR (x0 x1 : A) (b : Fin 64) (r : Fin 2048) : EReal :=
  max (Ideal.ofBits .f32 0xFF800000#32) (rowMax (Ideal.ofBits .f32 0xFF800000#32) (sR x0 x1 b r))

/-- The sum of the weights, from the zero seed. -/
abbrev lR (x0 x1 : A) (b : Fin 64) (r : Fin 2048) : EReal :=
  Ideal.ofBits .f32 0x00000000#32 + ∑ j, Ideal.exp (sR x0 x1 b r j - mR x0 x1 b r)

theorem v2_apply (x0 x1 : A) (b : Fin 64) (r j : Fin 2048) :
    val_main_v2 (F := Ideal) x0 x1 (ix3 b r j) = sR x0 x1 b r j := by
  rw [val_main_v2_apply, val_main_v0_apply, val_main_v1_apply, val_main_cst_apply]
  simp only [lidx0, ridx0]
  rfl

theorem v5_apply (x0 x1 : A) (b : Fin 64) (r : Fin 2048) :
    val_main_v5 (F := Ideal) x0 x1 (ix2 b r) = mR x0 x1 b r := by
  have hr : S64x2048x2048.Reduces [2] S64x2048 := by decide
  rw [val_main_v5_apply, val_main_v4_apply, val_main_cst_1_apply]
  unfold val_main_v3
  rw [Host.reduce_eq_fold_single FloatOps.maximumf _ _ reducesTo_S64x2048x2048_S64x2048_d2 hr h_S_, val_main_cst_0_apply]
  have e : (val_main_v2 (F := Ideal) x0 x1 ∘ hr.lift (ix2 b r)) = sR x0 x1 b r :=
    funext fun j => (congrArg (val_main_v2 (F := Ideal) x0 x1) (lift_last hr b r j)).trans (v2_apply x0 x1 b r j)
  rw [e]
  rfl

theorem v9_apply (x0 x1 : A) (b : Fin 64) (r j : Fin 2048) :
    val_main_v9 (F := Ideal) x0 x1 (ix3 b r j) = Ideal.exp (sR x0 x1 b r j - mR x0 x1 b r) := by
  rw [val_main_v9_apply, val_main_v8_apply, val_main_v7_apply, val_main_v6_apply, idx7, idx6, v2_apply, v5_apply]
  rfl

theorem v10_apply (x0 x1 : A) (b : Fin 64) (r : Fin 2048) :
    val_main_v10 (F := Ideal) x0 x1 (ix2 b r) = lR x0 x1 b r := by
  rw [val_main_v10_apply, val_main_cst_2_apply]
  refine congrArg (_ + ·) (Finset.sum_congr rfl fun j _ => ?_)
  rw [idx10, v9_apply]

theorem v13_apply (x0 x1 : A) (b : Fin 64) (r j : Fin 2048) :
    val_main_v13 (F := Ideal) x0 x1 (ix3 b r j)
      = Ideal.div (Ideal.exp (sR x0 x1 b r j - mR x0 x1 b r)) (lR x0 x1 b r) := by
  rw [val_main_v13_apply, val_main_v12_apply, val_main_v11_apply, idx12, idx11, v9_apply, v10_apply]
  rfl

/-! ## The result -/

/-- The reference's result array is the attention function in the reference's writing. -/
theorem ref_eq (x0 x1 x2 : A) :
    val_main_v14 (F := Ideal) x0 x1 x2
      = attnR (Ideal.ofBits .f32 0x41000000#32) (Ideal.ofBits .f32 0xFF800000#32) (Ideal.ofBits .f32 0x00000000#32) x0 x1 x2 := by
  funext i
  obtain ⟨b, r, d, rfl⟩ : ∃ (b : Fin 64) (r : Fin 2048) (d : Fin 64), i = ix3 b r d := ⟨i 0, i 1, i 2, eq_ix3 i⟩
  rw [val_main_v14_apply]
  show _ = ∑ j : Fin 2048, Ideal.div (Ideal.exp (sR x0 x1 b r j - mR x0 x1 b r)) (lR x0 x1 b r) * vcol x2 b d j
  refine Finset.sum_congr rfl fun j _ => ?_
  rw [lidx14, ridx14, v13_apply]
  rfl

end Cert.ReferenceIdeal.RefValue

end
-- ==== Proof.LibColumn.lean ====
/-
  Two layout operations of a kept-dimension row reduction read at an index, at any extents: a vector of
  row values `[a]` viewed as a column `[a, 1]`, and a column `[a, 1]` repeated along the rows to `[a, b]`.
  Entry `(i, j)` of the result is the row value `i`.
-/
import Idealize.ShloMosaic.Lib.Pipeline.Value
import Idealize.ShloMosaic.Lib.ValueIdx

noncomputable section

namespace Cert.Lib.Column

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ fun c => match c with
    | ⟨0, _⟩ => by
        show i.val = if a = 1 then 0 else i.val
        split_ifs with ha
        · have := i.isLt; omega
        · rfl
    | ⟨1, _⟩ => by
        show 0 = if (1 : ℕ) = 1 then 0 else j.val
        rw [if_pos rfl]

end Cert.Lib.Column

end
-- ==== Proof.KernelBlock.lean ====
/-
  What the kernel body stores for one query tile: entry `(0, r, d)` of the stored block is the
  attention entry in the kernel's writing (`softK` of `scoreK`, Proof/Softmax.lean) of row `r` of the
  tile's query block, all rows of the batch's key block, and column `d` of its value block.
  The body's value is cut into its named stages — the scaled query, the scores, the row maxima, the
  weights, their sums, the weighted value sums — and each is read at an index in turn.
-/
import proofs.«429320_j39676907887282_3_alg».proof.Proof.Gen.KernelIdeal.Skeleton
import proofs.«429320_j39676907887282_3_alg».proof.Proof.Rows
import proofs.«429320_j39676907887282_3_alg».proof.Proof.LibColumn
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.ValueIdx Cert.Attn Cert.Lib.Column

/-! ## The body's stages -/

/-- The query block scaled by `0.125`. -/
def qs (x0 : FVec Ideal S1x512x64 .f32) : FVec Ideal S512x64 .bf16 :=
  truncf .bf16 (mulf (shapeCast S512x64 x0 shapeCasts_S1x512x64_S512x64)
    (broadcast S512x64 (Scalar.ofBits (F := Ideal) .f32 0x3E000000#32))) bitsLt_bf16_f32

/-- A key or value block as a matrix. -/
def mat (x : FVec Ideal S1x2048x64 .f32) : FVec Ideal S2048x64 .bf16 :=
  truncf .bf16 (shapeCast S2048x64 x shapeCasts_S1x2048x64_S2048x64) bitsLt_bf16_f32

/-- The scores of the tile's 512 rows against the 2048 keys. -/
def sc (x0 : FVec Ideal S1x512x64 .f32) (x1 : FVec Ideal S1x2048x64 .f32) : FVec Ideal S512x2048 .f32 :=
  matmul dot_S512x64_S2048x64_S512x2048_1_1_0_0_n_n none (qs x0) (mat x1) (constant (F := Ideal) S512x2048 .f32 0x00000000#32)

/-- Each row's maximum score. -/
def mx (x0 : FVec Ideal S1x512x64 .f32) (x1 : FVec Ideal S1x2048x64 .f32) : FVec Ideal S512 .f32 :=
  multiReduction (F := Ideal) .maximumf [1] S512 (sc x0 x1) 0xFF800000#32 reduces_S512x2048_S512 (.inl rfl) rfl

/-- The weights: the exponential of each score less its row's maximum. -/
def pw (x0 : FVec Ideal S1x512x64 .f32) (x1 : FVec Ideal S1x2048x64 .f32) : FVec Ideal S512x2048 .f32 :=
  exp (subf (sc x0 x1) (broadcastTo S512x2048 (shapeCast S512x1 (mx x0 x1) shapeCasts_S512_S512x1) broadcasts_S512x1_S512x2048))

/-- Each row's sum of weights. -/
def ls (x0 : FVec Ideal S1x512x64 .f32) (x1 : FVec Ideal S1x2048x64 .f32) : FVec Ideal S512 .f32 :=
  multiReduction (F := Ideal) .add [1] S512 (pw x0 x1) 0x00000000#32 reduces_S512x2048_S512 (.inl rfl) rfl

/-- The weights contracted with the value block. -/
def pv (x0 : FVec Ideal S1x512x64 .f32) (x1 x2 : FVec Ideal S1x2048x64 .f32) : FVec Ideal S512x64 .f32 :=
  matmul dot_S512x2048_S2048x64_S512x64_1_0_0_1_n_n none (truncf .bf16 (pw x0 x1) bitsLt_bf16_f32) (mat x2)
    (constant (F := Ideal) S512x64 .f32 0x00000000#32)

/-- The body's stored value is the quotient of the last two stages, as a `[1, 512, 64]` block. -/
theorem pay_eq (x0 : FVec Ideal S1x512x64 .f32) (x1 x2 : FVec Ideal S1x2048x64 .f32) :
    k0_pay1 (F := Ideal) x0 x1 x2
      = shapeCast S1x512x64 (divf (pv x0 x1 x2)
          (broadcastTo S512x64 (shapeCast S512x1 (ls x0 x1) shapeCasts_S512_S512x1) broadcasts_S512x1_S512x64))
          shapeCasts_S512x64_S1x512x64 := rfl

/-! ## The two contractions' operand indices -/

theorem lhs1_0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs1_1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem rhs1_0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs1_1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

theorem lhs2_0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs2_1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem rhs2_0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem rhs2_1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The coordinate a row reduction inserts: row `r` with `j` put back is `(r, j)`. -/
theorem lift_row (h : S512x2048.Reduces [1] S512) (r : Fin 512) (j : Fin 2048) : h.lift (ix1 r) j = ix2 r j :=
  funext fun a => Fin.ext (by match a with | ⟨0, _⟩ => rfl | ⟨1, _⟩ => rfl)

/-! ## The stages at an index -/

/-- The scores of row `r` of the tile, in the kernel's writing. -/
abbrev sK (x0 : FVec Ideal S1x512x64 .f32) (x1 : FVec Ideal S1x2048x64 .f32) (r : Fin 512) : Fin 2048 → EReal :=
  scoreK (Ideal.ofBits .f32 0x3E000000#32) (fun d : Fin 64 => x0 (ix3 (0 : Fin 1) r d)) (fun (j : Fin 2048) (d : Fin 64) => x1 (ix3 (0 : Fin 1) j d))

/-- Row `r`'s maximum score. -/
abbrev mK (x0 : FVec Ideal S1x512x64 .f32) (x1 : FVec Ideal S1x2048x64 .f32) (r : Fin 512) : EReal :=
  rowMax (Ideal.ofBits .f32 0xFF800000#32) (sK x0 x1 r)

theorem qs_apply (x0 : FVec Ideal S1x512x64 .f32) (r : Fin 512) (d : Fin 64) :
    qs x0 (ix2 r d) = x0 (ix3 (0 : Fin 1) r d) * Ideal.ofBits .f32 0x3E000000#32 := by
  unfold qs
  rw [truncf_apply, mulf_apply, broadcast_apply, shapeCast_1ab_ab_apply]
  rfl

theorem mat_apply (x : FVec Ideal S1x2048x64 .f32) (j : Fin 2048) (d : Fin 64) :
    mat x (ix2 j d) = x (ix3 (0 : Fin 1) j d) := by
  unfold mat
  rw [truncf_apply, shapeCast_1ab_ab_apply]

theorem sc_apply (x0 : FVec Ideal S1x512x64 .f32) (x1 : FVec Ideal S1x2048x64 .f32) (r : Fin 512) (j : Fin 2048) :
    sc x0 x1 (ix2 r j) = sK x0 x1 r j := by
  unfold sc
  refine (Ideal.matmul_constant_zero_apply dot_S512x64_S2048x64_S512x2048_1_1_0_0_n_n none (qs x0) (mat x1) (ix2 r j)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r j) ((contrEquiv1 dot_S512x64_S2048x64_S512x2048_1_1_0_0_n_n 64 rfl rfl).symm k) = ix2 r k := funext fun a => Fin.ext (by
    match a with
    | ⟨0, _⟩ => exact lhs1_0 _ _
    | ⟨1, _⟩ => exact (lhs1_1 _ _).trans hk)
  have er : dot_S512x64_S2048x64_S512x2048_1_1_0_0_n_n.rhsIdx (ix2 r j) ((contrEquiv1 dot_S512x64_S2048x64_S512x2048_1_1_0_0_n_n 64 rfl rfl).symm k) = ix2 j k := funext fun a => Fin.ext (by
    match a with
    | ⟨0, _⟩ => exact rhs1_0 _ _
    | ⟨1, _⟩ => exact (rhs1_1 _ _).trans hk)
  rw [el, er, qs_apply, mat_apply]

theorem mx_apply (x0 : FVec Ideal S1x512x64 .f32) (x1 : FVec Ideal S1x2048x64 .f32) (r : Fin 512) :
    mx x0 x1 (ix1 r) = mK x0 x1 r := by
  unfold mx
  refine (Ideal.multiReduction_maximumf_single (sc x0 x1) 0xFF800000#32 reduces_S512x2048_S512 (.inl rfl) rfl (ix1 r)).trans ?_
  have e : (sc x0 x1 ∘ reduces_S512x2048_S512.lift (ix1 r)) = sK x0 x1 r :=
    funext fun j => (congrArg (sc x0 x1) (lift_row reduces_S512x2048_S512 r j)).trans (sc_apply x0 x1 r j)
  rw [e]
  rfl

theorem pw_apply (x0 : FVec Ideal S1x512x64 .f32) (x1 : FVec Ideal S1x2048x64 .f32) (r : Fin 512) (j : Fin 2048) :
    pw x0 x1 (ix2 r j) = Ideal.exp (sK x0 x1 r j - mK x0 x1 r) := by
  unfold pw
  show Ideal.exp (subf (sc x0 x1) (broadcastTo S512x2048 (shapeCast S512x1 (mx x0 x1) shapeCasts_S512_S512x1) broadcasts_S512x1_S512x2048) (ix2 r j)) = _
  rw [subf_apply, broadcastTo_a1_ab_apply, shapeCast_a_a1_apply, sc_apply, mx_apply]

theorem ls_apply (x0 : FVec Ideal S1x512x64 .f32) (x1 : FVec Ideal S1x2048x64 .f32) (r : Fin 512) :
    ls x0 x1 (ix1 r) = ∑ j : Fin 2048, Ideal.exp (sK x0 x1 r j - mK x0 x1 r) := by
  unfold ls
  refine (Ideal.multiReduction_add_single (pw x0 x1) 0x00000000#32 reduces_S512x2048_S512 (.inl rfl) rfl (ix1 r)).trans ?_
  exact Finset.sum_congr rfl fun j _ =>
    (congrArg (pw x0 x1) (lift_row reduces_S512x2048_S512 r j)).trans (pw_apply x0 x1 r j)

theorem pv_apply (x0 : FVec Ideal S1x512x64 .f32) (x1 x2 : FVec Ideal S1x2048x64 .f32) (r : Fin 512) (d : Fin 64) :
    pv x0 x1 x2 (ix2 r d) = ∑ j : Fin 2048, Ideal.exp (sK x0 x1 r j - mK x0 x1 r) * x2 (ix3 (0 : Fin 1) j d) := by
  unfold pv
  refine (Ideal.matmul_constant_zero_apply dot_S512x2048_S2048x64_S512x64_1_0_0_1_n_n none (truncf .bf16 (pw x0 x1) bitsLt_bf16_f32) (mat x2) (ix2 r d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact lhs2_0 _ _
    | ⟨1, _⟩ => exact (lhs2_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (rhs2_0 _ _).trans hk
    | ⟨1, _⟩ => exact rhs2_1 _ _)
  rw [el, er, truncf_apply, pw_apply, mat_apply]

/-! ## The stored block -/

/-- Entry `(u, r, d)` of the block the body stores: the attention entry, in the kernel's writing, of row `r` of the
    query block, the key block and column `d` of the value block. -/
theorem block_apply (x0 : FVec Ideal S1x512x64 .f32) (x1 x2 : FVec Ideal S1x2048x64 .f32) (u : Fin 1) (r : Fin 512) (d : Fin 64) :
    k0_pay1 (F := Ideal) x0 x1 x2 (ix3 u r d)
      = softK (Ideal.ofBits .f32 0xFF800000#32) (sK x0 x1 r) (fun j : Fin 2048 => x2 (ix3 (0 : Fin 1) j d)) := by
  rw [pay_eq, shapeCast_ab_1ab_apply, divf_apply, pv_apply, broadcastTo_a1_ab_apply, shapeCast_a_a1_apply, ls_apply]
  rfl

end Cert.KernelIdeal.Block

end
-- ==== Proof.KernelValue.lean ====
/-
  From the tiles to the whole result.  The grid has one point per (batch, query tile): point `t` reads
  rows `512·qi … 512·qi + 511` of batch `b` of the queries, all of batch `b` of the keys and of the values,
  and writes the same rows of batch `b` of the result.  So what a point writes back is its block of ONE
  array — the attention function in the kernel's writing (`attnK`, Proof/Rows.lean) of the three
  arguments — and the 256 blocks tile the result, which therefore ends holding that array.
-/
import proofs.«429320_j39676907887282_3_alg».proof.Proof.Gen.KernelIdeal.Value
import proofs.«429320_j39676907887282_3_alg».proof.Proof.KernelBlock

set_option maxRecDepth 16384

noncomputable section

namespace Cert.KernelIdeal.Whole

open Cert.KernelIdeal Cert.KernelIdeal.Gen Cert.KernelIdeal.Block
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The arguments, the blocks and the result, at their literal types -/

/-- The queries, the keys and the values as the region finds them. -/
abbrev qarr (c : Dev nD) : Arr := V m c main_arg0
abbrev karr (c : Dev nD) : Arr := V m c main_arg1
abbrev varr (c : Dev nD) : Arr := V m c main_arg2

/-- Point `t`'s query tile, key block and value block. -/
abbrev qblk (c : Dev nD) (t : Fin cfg0.N) : FVec Ideal S1x512x64 .f32 := iblk m c 0 t
abbrev kblk (c : Dev nD) (t : Fin cfg0.N) : FVec Ideal S1x2048x64 .f32 := iblk m c 1 t
abbrev vblk (c : Dev nD) (t : Fin cfg0.N) : FVec Ideal S1x2048x64 .f32 := iblk m c 2 t

/-- The result: attention, in the kernel's writing, of the three arguments. -/
abbrev G (c : Dev nD) : Arr :=
  attnK (Ideal.ofBits .f32 0x3E000000#32) (Ideal.ofBits .f32 0xFF800000#32) (qarr m c) (karr m c) (varr m c)

/-! ## The index maps over the grid -/

/-- Decided over the 256 points: the query tile moves with the output tile; the key and value blocks follow its
    batch and stay at the origin otherwise; the output's batch is below 64 and its tile below 4. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 63 ∧ win0_3.index t (1 : Fin 3) ≤ 3 ∧ win0_3.index t (2 : Fin 3) = 0 :=
  (by decide +kernel : ∀ t : Fin grid0.N, _)

/-- Every (batch, tile) pair is some point's. -/
theorem idx_onto : ∀ (q0 : Fin 64) (q1 : Fin 4), ∃ t : Fin cfg0.N, win0_3.index t = ![q0.val, q1.val, 0] :=
  (by decide +kernel : ∀ (q0 : Fin 64) (q1 : Fin 4), ∃ t : Fin grid0.N, win0_3.index t = ![q0.val, q1.val, 0])

/-! ## The blocks as parts of the arguments -/

/-- Entry `(0, r, d)` of point `t`'s query tile is the queries at (the point's batch, its tile's row `r`, `d`). -/
theorem qblk_apply (c : Dev nD) (t : Fin cfg0.N) (r : Fin 512) (d : Fin 64) (i : (⟨3, ![64, 2048, 64]⟩ : Shape).Idx)
    (h0 : (i 0).val = win0_3.index t (0 : Fin 3)) (h1 : (i 1).val = win0_3.index t (1 : Fin 3) * 512 + r.val) (h2 : (i 2).val = d.val) :
    qblk m c t (ix3 (0 : Fin 1) r d) = qarr m c i := by
  obtain ⟨e0, e1, e2, -⟩ := idx_facts t
  unfold qblk iblk
  rw [View.read_apply]
  show V m c main_arg0 _ = V m c main_arg0 i
  congr 1
  funext a
  apply Fin.ext
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 64 + 1 * d.val = (i 2).val; omega

/-- Entry `(0, j, d)` of point `t`'s key block is the keys at (the point's batch, `j`, `d`). -/
theorem kblk_apply (c : Dev nD) (t : Fin cfg0.N) (j : Fin 2048) (d : Fin 64) (i : (⟨3, ![64, 2048, 64]⟩ : Shape).Idx)
    (h0 : (i 0).val = win0_3.index t (0 : Fin 3)) (h1 : (i 1).val = j.val) (h2 : (i 2).val = d.val) :
    kblk m c t (ix3 (0 : Fin 1) j d) = karr m c i := by
  obtain ⟨-, -, -, e0, e1, e2, -⟩ := idx_facts t
  unfold kblk iblk
  rw [View.read_apply]
  show V m c main_arg1 _ = V m c main_arg1 i
  congr 1
  funext a
  apply Fin.ext
  match a with
  | ⟨0, _⟩ => show win0_1.index t (0 : Fin 3) * 1 + 1 * 0 = (i 0).val; omega
  | ⟨1, _⟩ => show win0_1.index t (1 : Fin 3) * 2048 + 1 * j.val = (i 1).val; omega
  | ⟨2, _⟩ => show win0_1.index t (2 : Fin 3) * 64 + 1 * d.val = (i 2).val; omega

/-- Entry `(0, j, d)` of point `t`'s value block is the values at (the point's batch, `j`, `d`). -/
theorem vblk_apply (c : Dev nD) (t : Fin cfg0.N) (j : Fin 2048) (d : Fin 64) (i : (⟨3, ![64, 2048, 64]⟩ : Shape).Idx)
    (h0 : (i 0).val = win0_3.index t (0 : Fin 3)) (h1 : (i 1).val = j.val) (h2 : (i 2).val = d.val) :
    vblk m c t (ix3 (0 : Fin 1) j d) = varr m c i := by
  obtain ⟨-, -, -, -, -, -, e0, e1, e2, -⟩ := idx_facts t
  unfold vblk iblk
  rw [View.read_apply]
  show V m c main_arg2 _ = V m c main_arg2 i
  congr 1
  funext a
  apply Fin.ext
  match a with
  | ⟨0, _⟩ => show win0_2.index t (0 : Fin 3) * 1 + 1 * 0 = (i 0).val; omega
  | ⟨1, _⟩ => show win0_2.index t (1 : Fin 3) * 2048 + 1 * j.val = (i 1).val; omega
  | ⟨2, _⟩ => show win0_2.index t (2 : Fin 3) * 64 + 1 * d.val = (i 2).val; omega

/-! ## What a point stores is its block of the result -/

/-- Entry `y` of what point `t`'s body stores is the result at the array index under `y` in the point's output block. -/
theorem entry_eq (c : Dev nD) (t : Fin cfg0.N) (y : (⟨3, ![1, 512, 64]⟩ : Shape).Idx) (i : (⟨3, ![64, 2048, 64]⟩ : Shape).Idx)
    (h0 : (i 0).val = win0_3.index t (0 : Fin 3) * 1 + 1 * (y 0).val)
    (h1 : (i 1).val = win0_3.index t (1 : Fin 3) * 512 + 1 * (y 1).val)
    (h2 : (i 2).val = win0_3.index t (2 : Fin 3) * 64 + 1 * (y 2).val) :
    k0_pay1 (F := Ideal) (qblk m c t) (kblk m c t) (vblk m c t) y = G m c i := by
  obtain ⟨u, r, d, rfl⟩ : ∃ (u : Fin 1) (r : Fin 512) (d : Fin 64), y = ix3 u r d := ⟨y 0, y 1, y 2, eq_ix3 y⟩
  obtain ⟨b, s, e, rfl⟩ : ∃ (b : Fin 64) (s : Fin 2048) (e : Fin 64), i = ix3 b s e := ⟨i 0, i 1, i 2, eq_ix3 i⟩
  obtain ⟨-, -, -, -, -, -, -, -, -, -, -, f2⟩ := idx_facts t
  have hu : u.val = 0 := by omega
  have g0 : b.val = win0_3.index t (0 : Fin 3) * 1 + 1 * u.val := h0
  have g1 : s.val = win0_3.index t (1 : Fin 3) * 512 + 1 * r.val := h1
  have g2 : e.val = win0_3.index t (2 : Fin 3) * 64 + 1 * d.val := h2
  rw [Block.block_apply]
  show softK _ (sK (qblk m c t) (kblk m c t) r) (fun j : Fin 2048 => vblk m c t (ix3 (0 : Fin 1) j d))
    = softK _ (scoreK _ (qrow (qarr m c) b s) (krows (karr m c) b)) (vcol (varr m c) b e)
  have hs : sK (qblk m c t) (kblk m c t) r
      = scoreK (Ideal.ofBits .f32 0x3E000000#32) (qrow (qarr m c) b s) (krows (karr m c) b) := by
    funext j
    refine Finset.sum_congr rfl fun k _ => ?_
    show qblk m c t (ix3 (0 : Fin 1) r k) * _ * kblk m c t (ix3 (0 : Fin 1) j k) = qarr m c (ix3 b s k) * _ * karr m c (ix3 b j k)
    rw [qblk_apply m c t r k (ix3 b s k) (by show b.val = _; omega) (by show s.val = _; omega) rfl,
      kblk_apply m c t j k (ix3 b j k) (by show b.val = _; omega) rfl rfl]
  have hv : (fun j : Fin 2048 => vblk m c t (ix3 (0 : Fin 1) j d)) = vcol (varr m c) b e :=
    funext fun j => vblk_apply m c t j d (ix3 b j e) (by show b.val = _; omega) rfl (by show e.val = _; omega)
  rw [hs, hv]

/-- WHAT POINT `t` WRITES BACK is block `t` of the result. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz3]
  simp only [View.ld_unit_zero (S := S1x512x64) hz3, View.ld_unit_zero (S := S1x2048x64) hz3]
  funext y
  show k0_pay1 (F := Ideal) (qblk m c t) (kblk m c t) (vblk m c t) y = G m c (((cfg0.win 3).blk t).view.emb y)
  exact entry_eq m c t y (((cfg0.win 3).blk t).view.emb y) rfl rfl rfl

/-! ## The blocks tile the result -/

/-- An index of the result is in point `t`'s block iff each coordinate is in the block's range on its axis. -/
theorem mem_blk (t : Fin cfg0.N) (i : S64x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v0).slice (win0_3.rect t)).set ↔ _
  rw [View.set_slice_whole, Rect.mem_set_unit]
  exact Iff.rfl

/-- Every index of the result is in the block of the point of its batch and of its row's tile. -/
theorem cover (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE RESULT ARRAY after the run is the attention function of the arguments. -/
theorem final (c : Dev nD) : (dats m 0 c).arrAt 3 cfg0.N = G m c :=
  (dats m 0 c).arrAt_eq_of_cover 3 (G m c) (fun t _ => flushed_eq m c t) cover

/-! ## The run, read -/

/-- Every weakly fair execution of the kernel's program ends with the result array at `G` and the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/- Scaled dot-product attention over `[64, 2048, 64]` arrays: a tiled kernel against a plain reference, equal over
   the extended reals when every input is finite.

   Per (batch, 512-row query tile) the kernel scales the queries by `1/8`, contracts with all 2048 keys, takes each
   row's maximum `M`, the weights `p = exp (score − M)`, their sum `L`, and stores `(p · V) / L`.  The reference divides
   the contracted scores by `8`, normalises each weight, `p / L`, and then contracts with the values.  Finite inputs
   make every score a real, so `M` is a real, every weight a positive real and `L` a nonzero real; `(q·⅛)·k` summed is
   `(q·k)` summed over `8`, and `(∑ p·v)/L = ∑ (p/L)·v` is distributivity in `ℝ` (Proof/Softmax.lean).

   Proof/Rows.lean lifts the law to whole arrays; Proof/Finite.lean reads the precondition as "every entry is a
   real"; Proof/RefValue.lean reads the reference's result entry by entry; Proof/KernelBlock.lean reads one stored
   tile entry by entry and Proof/KernelValue.lean shows the 256 tiles are the blocks of one array that they cover.
   The three frames are the programs' runs with the result forgotten, and the idealization rewrote nothing. -/
import proofs.«429320_j39676907887282_3_alg».proof.Defs
import proofs.«429320_j39676907887282_3_alg».proof.Proof.Gen.Kernel
import proofs.«429320_j39676907887282_3_alg».proof.Proof.Gen.Kernel.Skeleton
import proofs.«429320_j39676907887282_3_alg».proof.Proof.Gen.Kernel.Launch
import proofs.«429320_j39676907887282_3_alg».proof.Proof.Gen.Kernel.Points
import proofs.«429320_j39676907887282_3_alg».proof.Proof.Gen.Kernel.Frame
import proofs.«429320_j39676907887282_3_alg».proof.Proof.Gen.KernelIdeal
import proofs.«429320_j39676907887282_3_alg».proof.Proof.Gen.KernelIdeal.Skeleton
import proofs.«429320_j39676907887282_3_alg».proof.Proof.Gen.KernelIdeal.Launch
import proofs.«429320_j39676907887282_3_alg».proof.Proof.Gen.KernelIdeal.Points
import proofs.«429320_j39676907887282_3_alg».proof.Proof.Gen.KernelIdeal.Frame
import proofs.«429320_j39676907887282_3_alg».proof.Proof.Gen.ReferenceIdeal
import proofs.«429320_j39676907887282_3_alg».proof.Proof.Gen.Pre_finite_inputs
import proofs.«429320_j39676907887282_3_alg».proof.Proof.Gen.KernelIdeal.Value
import proofs.«429320_j39676907887282_3_alg».proof.Proof.Gen.ReferenceIdeal.Run
import proofs.«429320_j39676907887282_3_alg».proof.Proof.Gen.ReferenceIdeal.Read
import proofs.«429320_j39676907887282_3_alg».proof.Proof.Finite
import proofs.«429320_j39676907887282_3_alg».proof.Proof.RefValue
import proofs.«429320_j39676907887282_3_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments the kernel ends with the attention function in its own writing
    and the reference with the same function in its writing: one array, by the law of Proof/Softmax.lean. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v14_eq,
    Cert.ReferenceIdeal.RefValue.ref_eq]
  obtain ⟨hq, hk, hv⟩ := Cert.Attn.Finite.real_of_pre _ _ _ (hpre c)
  exact (Cert.Attn.attnK_eq_attnR _ _ _ hq hk hv).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
